-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x2048 .f32) (main_arg5 : FVec F S1024 .f32) (main_arg6 : FVec F S1024x2048 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S1024x2048 .f32) (main_arg3 : FVec F S1024 .f32) (main_arg4 : FVec F S1024x2048 .f32) (main_arg5 : FVec F S1024 .f32) (main_arg6 : FVec F S1024x2048 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S1024x1024 : Shape := ⟨2, ![1024, 1024]⟩
abbrev S512x1024 : Shape := ⟨2, ![512, 1024]⟩
abbrev S1x1024 : Shape := ⟨2, ![1, 1024]⟩

abbrev nBuf : Space → Nat
  | .hbm => 28
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .f32⟩
  | .hbm, ⟨22, _⟩ => ⟨S1024x1024, .bf16⟩
  | .hbm, ⟨23, _⟩ => ⟨S1024x1024, .f32⟩
  | .hbm, ⟨24, _⟩ => ⟨S1024x1024, .f32⟩
  | .hbm, ⟨25, _⟩ => ⟨S1024x1024, .bf16⟩
  | .hbm, ⟨26, _⟩ => ⟨S8192x1024, .bf16⟩
  | .hbm, ⟨27, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024, .f32⟩
  | .local _ .vmem, ⟨11, _⟩ => ⟨S1024, .f32⟩
  | .local _ .vmem, ⟨12, _⟩ => ⟨S1024, .f32⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x2048_S1024x1024_0_0 : S1024x2048.Slices ![0, 0] S1024x1024
  transposes_S1024x1024_S1024x1024_1_0 : S1024x1024.Transposes [1, 0] S1024x1024
  bitsLt_bf16_f32 : FTy.bits .bf16 < FTy.bits .f32
  slices_S1024x2048_S1024x1024_0_1024 : S1024x2048.Slices ![0, 1024] S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024.size a ≤ S1024.size a
  hwx0_9 : ∀ i : grid0.Coords, EltTy.bits .f32 = 32 ∨ (Rect.block (s := S1024) S1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S8192x1024.size a
  hwx0_11 : ∀ i : grid0.Coords, EltTy.bits .f32 = 32 ∨ (Rect.block (s := S8192x1024) S512x1024.size (cc0_transform_11 i) (hinb0_11 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v18) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg3) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v19) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S2048x1024 : Shape := ⟨2, ![2048, 1024]⟩
abbrev S1x1024 : Shape := ⟨2, ![1, 1024]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x2048, .f32⟩
  | .hbm, ⟨3, _⟩ => ⟨S1024, .f32⟩
  | .hbm, ⟨4, _⟩ => ⟨S1024x2048, .f32⟩
  | .hbm, ⟨5, _⟩ => ⟨S1024, .f32⟩
  | .hbm, ⟨6, _⟩ => ⟨S1024x2048, .f32⟩
  | .hbm, ⟨7, _⟩ => ⟨S1024, .f32⟩
  | .hbm, ⟨8, _⟩ => ⟨S8192x2048, .f32⟩
  | .hbm, ⟨9, _⟩ => ⟨S2048x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S2048x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x2048, .f32⟩
  | .hbm, ⟨37, _⟩ => ⟨S2048x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x2048_S2048x1024_S8192x1024_1_0_0_1_n_n_wf : DotDims.WF S8192x2048 S2048x1024 S8192x1024 [1] [0] [0] [1] [] []

variable [Facts₀]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.GruSpec.lean ====
/-
  The gated recurrent cell, written once as a function of its arrays on the extended reals.

  For a batch of B rows, hidden states h and inputs x (both B x 1024), and for each of the three gates a weight matrix
  given as two 1024 x 1024 halves already laid out contraction-first (Wh for the hidden half, Wx for the input half)
  with a bias row:

    pre  (b, j) = (sum_l h(b,l) * Wh(l,j)  +  sum_l x(b,l) * Wx(l,j))  +  bias(j)
    z           = logistic (pre with the update gate's weights)
    r           = logistic (pre with the reset gate's weights)
    cand (b, j) = tanh ((sum_l (r(b,l) * h(b,l)) * Wh(l,j)  +  sum_l x(b,l) * Wx(l,j))  +  bias(j))   (candidate weights)
    cell (b, j) = (1 - z(b,j)) * h(b,j)  +  z(b,j) * cand(b,j)

  Every row of the result depends on the same row of h and x only, so the cell of a band of rows is that band of the
  cell of all rows (`cell_rows`).  A weight matrix stored unit-first, 1024 x 2048, with the hidden columns first, gives
  its two halves by `hidHalf` and `inHalf`; a sum over all 2048 columns is the sum over the first 1024 plus the sum
  over the last 1024 (`sum_halves`), with no condition on the terms: addition of extended reals is commutative and
  associative.  The quotient 1 / (1 + e^(-x)) is the logistic function at every extended real, by definition.
-/
import Idealize.ShloMosaic.Lib.ValueIdx
import Idealize.ShloMosaic.Lib.IdealHost
import Idealize.ShloMosaic.PureOps.Ideal.Laws

noncomputable section

namespace Cert.Gru

open Idealize.ShloMosaic Idealize.ShloMosaic.ValueIdx

/-- A matrix of extended reals. -/
abbrev Mat (r c : ℕ) : Type := (⟨2, ![r, c]⟩ : Shape).Idx → EReal
/-- A row of extended reals. -/
abbrev Row (n : ℕ) : Type := (⟨1, ![n]⟩ : Shape).Idx → EReal

/-! ## The two halves of a weight row -/

/-- Column `l` of the hidden half: the first 1024 columns. -/
def lo (l : Fin 1024) : Fin 2048 := ⟨l.val, by have := l.isLt; omega⟩
/-- Column `l` of the input half: the last 1024 columns. -/
def hi (l : Fin 1024) : Fin 2048 := ⟨1024 + l.val, by have := l.isLt; omega⟩

/-- A sum over all 2048 columns is the sum over the first half plus the sum over the second half. -/
theorem sum_halves {M : Type*} [AddCommMonoid M] (f : Fin 2048 → M) :
    ∑ k : Fin 2048, f k = ∑ l : Fin 1024, f (lo l) + ∑ l : Fin 1024, f (hi l) :=
  Fin.sum_univ_add (a := 1024) (b := 1024) f

/-- The hidden half of a unit-first weight matrix, laid out contraction-first: entry (l, j) is W(j, l). -/
def hidHalf (W : Mat 1024 2048) : Mat 1024 1024 := fun i => W (ix2 (i 1) (lo (i 0)))
/-- The input half of a unit-first weight matrix, laid out contraction-first: entry (l, j) is W(j, 1024 + l). -/
def inHalf (W : Mat 1024 2048) : Mat 1024 1024 := fun i => W (ix2 (i 1) (hi (i 0)))

/-! ## The cell -/

variable {B : ℕ}

/-- A gate's pre-activation at row `b`, unit `j`. -/
def pre (h x : Mat B 1024) (Wh Wx : Mat 1024 1024) (bias : Row 1024) (b : Fin B) (j : Fin 1024) : EReal :=
  (∑ l : Fin 1024, h (ix2 b l) * Wh (ix2 l j) + ∑ l : Fin 1024, x (ix2 b l) * Wx (ix2 l j)) + bias (ix1 j)

/-- A gate: the logistic function of its pre-activation. -/
def gate (h x : Mat B 1024) (Wh Wx : Mat 1024 1024) (bias : Row 1024) (b : Fin B) (j : Fin 1024) : EReal :=
  Ideal.logistic (pre h x Wh Wx bias b j)

/-- The hidden states scaled entry by entry by the reset gate. -/
def resetHid (h x : Mat B 1024) (Wrh Wrx : Mat 1024 1024) (br : Row 1024) : Mat B 1024 :=
  fun i => gate h x Wrh Wrx br (i 0) (i 1) * h i

/-- The candidate state: tanh of the candidate weights applied to the reset hidden states and the inputs. -/
def cand (h x : Mat B 1024) (Wrh Wrx : Mat 1024 1024) (br : Row 1024) (Whh Whx : Mat 1024 1024) (bh : Row 1024)
    (b : Fin B) (j : Fin 1024) : EReal :=
  Ideal.tanh (pre (resetHid h x Wrh Wrx br) x Whh Whx bh b j)

/-- The new hidden states: the update gate blends the old state with the candidate. -/
def cell (x h : Mat B 1024) (Wzh Wzx : Mat 1024 1024) (bz : Row 1024) (Wrh Wrx : Mat 1024 1024) (br : Row 1024)
    (Whh Whx : Mat 1024 1024) (bh : Row 1024) : Mat B 1024 :=
  fun i => (1 - gate h x Wzh Wzx bz (i 0) (i 1)) * h i
    + gate h x Wzh Wzx bz (i 0) (i 1) * cand h x Wrh Wrx br Whh Whx bh (i 0) (i 1)

/-! ## Rows are independent -/

variable {B' : ℕ}

theorem pre_rows (h x : Mat B 1024) (h' x' : Mat B' 1024) (ρ : Fin B' → Fin B)
    (hh : ∀ p l, h' (ix2 p l) = h (ix2 (ρ p) l)) (hx : ∀ p l, x' (ix2 p l) = x (ix2 (ρ p) l))
    (Wh Wx : Mat 1024 1024) (bias : Row 1024) (p : Fin B') (j : Fin 1024) :
    pre h' x' Wh Wx bias p j = pre h x Wh Wx bias (ρ p) j := by
  unfold pre
  simp only [hh, hx]

theorem gate_rows (h x : Mat B 1024) (h' x' : Mat B' 1024) (ρ : Fin B' → Fin B)
    (hh : ∀ p l, h' (ix2 p l) = h (ix2 (ρ p) l)) (hx : ∀ p l, x' (ix2 p l) = x (ix2 (ρ p) l))
    (Wh Wx : Mat 1024 1024) (bias : Row 1024) (p : Fin B') (j : Fin 1024) :
    gate h' x' Wh Wx bias p j = gate h x Wh Wx bias (ρ p) j := by
  unfold gate
  rw [pre_rows h x h' x' ρ hh hx]

/-- The cell of a band of rows (row `p` of the band being row `ρ p` of the whole) is that band of the cell of all rows. -/
theorem cell_rows (h x : Mat B 1024) (h' x' : Mat B' 1024) (ρ : Fin B' → Fin B)
    (hh : ∀ p l, h' (ix2 p l) = h (ix2 (ρ p) l)) (hx : ∀ p l, x' (ix2 p l) = x (ix2 (ρ p) l))
    (Wzh Wzx : Mat 1024 1024) (bz : Row 1024) (Wrh Wrx : Mat 1024 1024) (br : Row 1024)
    (Whh Whx : Mat 1024 1024) (bh : Row 1024) (p : Fin B') (q : Fin 1024) :
    cell x' h' Wzh Wzx bz Wrh Wrx br Whh Whx bh (ix2 p q) = cell x h Wzh Wzx bz Wrh Wrx br Whh Whx bh (ix2 (ρ p) q) := by
  have hr : ∀ p l, resetHid h' x' Wrh Wrx br (ix2 p l) = resetHid h x Wrh Wrx br (ix2 (ρ p) l) := by
    intro p l
    show gate h' x' Wrh Wrx br p l * h' (ix2 p l) = gate h x Wrh Wrx br (ρ p) l * h (ix2 (ρ p) l)
    rw [gate_rows h x h' x' ρ hh hx, hh]
  show (1 - gate h' x' Wzh Wzx bz p q) * h' (ix2 p q) + gate h' x' Wzh Wzx bz p q * cand h' x' Wrh Wrx br Whh Whx bh p q
     = (1 - gate h x Wzh Wzx bz (ρ p) q) * h (ix2 (ρ p) q) + gate h x Wzh Wzx bz (ρ p) q * cand h x Wrh Wrx br Whh Whx bh (ρ p) q
  rw [gate_rows h x h' x' ρ hh hx, hh]
  unfold cand
  rw [pre_rows (resetHid h x Wrh Wrx br) x (resetHid h' x' Wrh Wrx br) x' ρ hr hx]

/-! ## The logistic function spelled as a quotient -/

/-- One over one plus e^(-x), the ones written as the single-precision pattern of 1.0, is the logistic function. -/
theorem logistic_quotient (x : EReal) :
    Ideal.div (Ideal.ofBits .f32 0x3F800000#32) (Ideal.ofBits .f32 0x3F800000#32 + Ideal.exp (-x)) = Ideal.logistic x := by
  rw [Ideal.ofBits_one_f32]
  rfl

end Cert.Gru

end
-- ==== Proof.GruPayload.lean ====
/-
  What the kernel body stores, as a function of the blocks it loads.

  At one grid point the body loads a band of 512 rows of the inputs x and of the hidden states h, the six weight halves
  whole (already contraction-first) and the three bias rows.  Each gate is two matrix products into a zero accumulator,
  added, plus the bias row broadcast down the band, through the logistic function; the candidate is the same with the
  hidden band first scaled by the reset gate, through tanh; the stored value blends the hidden band and the candidate by
  the update gate.  A change of float format is the identity on the extended reals and a cast to the same shape is the
  identity, so entry by entry the stored value is `cell` of the loaded blocks.
-/
import proofs.«180917_j78451872628868_1_alg».proof.Proof.Gen.KernelIdeal.Skeleton
import proofs.«180917_j78451872628868_1_alg».proof.Proof.LibMatmulPlain
import proofs.«180917_j78451872628868_1_alg».proof.Proof.GruSpec
import Idealize.ShloMosaic.Lib.ValueLayout
import Idealize.ShloMosaic.Lib.Pipeline.Value

noncomputable section

namespace Cert.Gru

open Idealize.ShloMosaic Idealize.ShloMosaic.ValueIdx Cert.KernelIdeal Cert.KernelIdeal.Gen

/-- The body's six products all contract the left operand's columns with the right operand's rows. -/
theorem bodyDot_plain : Cert.Gcn.IsPlain dot_S512x1024_S1024x1024_S512x1024_1_0_0_1_n_n := ⟨rfl, rfl, rfl, rfl, rfl, rfl⟩

/-- A change of float format is the identity on the extended reals. -/
theorem truncf_id {s : Shape} {φ ψ : FTy} (a : FVec Ideal s φ) (h : ψ.bits < φ.bits) : (truncf ψ a h : FVec Ideal s ψ) = a := rfl

/-- Two products into zero accumulators, added, plus a bias row broadcast down the band, at entry (p, q): the gate's
    pre-activation of the band. -/
theorem body_pre {φ₁ φ₂ φ₃ φ₄ : FTy} (D : DotDims ⟨2, ![512, 1024]⟩ ⟨2, ![1024, 1024]⟩ ⟨2, ![512, 1024]⟩) (hD : Cert.Gcn.IsPlain D)
    (a : FVec Ideal ⟨2, ![512, 1024]⟩ φ₁) (b : FVec Ideal ⟨2, ![512, 1024]⟩ φ₂)
    (Wa : FVec Ideal ⟨2, ![1024, 1024]⟩ φ₃) (Wb : FVec Ideal ⟨2, ![1024, 1024]⟩ φ₄) (bias : FVec Ideal ⟨1, ![1024]⟩ .f32)
    (hs : (⟨1, ![1024]⟩ : Shape).ShapeCasts ⟨2, ![1, 1024]⟩) (hb : (⟨2, ![1, 1024]⟩ : Shape).Broadcasts ⟨2, ![512, 1024]⟩)
    (p : Fin 512) (q : Fin 1024) :
    addf (addf (matmul D none a Wa (constant (F := Ideal) ⟨2, ![512, 1024]⟩ .f32 0x00000000#32))
          (matmul D none b Wb (constant (F := Ideal) ⟨2, ![512, 1024]⟩ .f32 0x00000000#32)))
        (broadcastTo ⟨2, ![512, 1024]⟩ (shapeCast ⟨2, ![1, 1024]⟩ bias hs) hb) (ix2 p q)
      = pre (B := 512) a b Wa Wb bias p q := by
  rw [addf_apply, addf_apply, Cert.Gcn.matmul_plain_apply D hD, Cert.Gcn.matmul_plain_apply D hD,
    broadcastTo_1b_ab_apply, shapeCast_a_1a_apply]
  rfl

variable (x0 : Vec Ideal S512x1024 .bf16) (x1 : Vec Ideal S512x1024 .f32)
  (x2 x3 x4 x5 x6 x7 : Vec Ideal S1024x1024 .bf16) (x8 x9 x10 : Vec Ideal S1024 .f32)

/-- The update gate of the band. -/
theorem body_update : k0_pay6 (F := Ideal) x0 x1 x2 x3 x8 = fun i => gate (B := 512) x1 x0 x2 x3 x8 (i 0) (i 1) := by
  funext i
  obtain ⟨p, q, rfl⟩ : ∃ (p : Fin 512) (q : Fin 1024), i = ix2 p q := ⟨i 0, i 1, eq_ix2 i⟩
  unfold k0_pay6 k0_pay3 k0_pay2
  simp only [shapeCast_self, truncf_id]
  exact congrArg Ideal.logistic (body_pre _ bodyDot_plain x1 x0 x2 x3 x8 _ _ p q)

/-- The hidden band scaled by the reset gate. -/
theorem body_reset : k0_pay7 (F := Ideal) x0 x1 x4 x5 x9 = resetHid (B := 512) x1 x0 x4 x5 x9 := by
  funext i
  obtain ⟨p, q, rfl⟩ : ∃ (p : Fin 512) (q : Fin 1024), i = ix2 p q := ⟨i 0, i 1, eq_ix2 i⟩
  unfold k0_pay7 k0_pay3 k0_pay2
  simp only [shapeCast_self, truncf_id]
  exact congrArg (· * x1 (ix2 p q)) (congrArg Ideal.logistic (body_pre _ bodyDot_plain x1 x0 x4 x5 x9 _ _ p q))

/-- THE STORED VALUE is the cell of the loaded blocks. -/
theorem body_cell :
    k0_pay1 (F := Ideal) (k0_pay2 x0) x1 (k0_pay4 x6) (k0_pay5 x7) x10 (k0_pay6 x0 x1 x2 x3 x8) (k0_pay7 x0 x1 x4 x5 x9)
        (constant S512x1024 .f32 0x00000000#32)
      = cell (B := 512) x0 x1 x2 x3 x8 x4 x5 x9 x6 x7 x10 := by
  rw [body_update, body_reset]
  funext i
  obtain ⟨p, q, rfl⟩ : ∃ (p : Fin 512) (q : Fin 1024), i = ix2 p q := ⟨i 0, i 1, eq_ix2 i⟩
  unfold k0_pay1 k0_pay2 k0_pay4 k0_pay5
  simp only [shapeCast_self]
  have hc := body_pre (φ₁ := .bf16) (φ₂ := .bf16) (φ₃ := .bf16) (φ₄ := .bf16) _ bodyDot_plain (resetHid (B := 512) x1 x0 x4 x5 x9) x0 x6 x7 x10
    shapeCasts_S1024_S1x1024 broadcasts_S1x1024_S512x1024 p q
  show (Ideal.ofBits .f32 0x3F800000#32 - _) * _ + _ * Ideal.tanh _ = (1 - _) * _ + _ * Ideal.tanh _
  rw [Ideal.ofBits_one_f32, hc]

end Cert.Gru

end
-- ==== Proof.GruBlocks.lean ====
/-
  From the blocks to the whole result array.

  Before the region the host cuts each unit-first weight matrix into its hidden columns and its input columns, transposes
  each half and changes its float format: on the extended reals these six arrays are `hidHalf` and `inHalf` of the three
  weight matrices, and the re-formatted inputs are the inputs.  At grid point t the input and hidden windows hold rows
  512 t ... 512 t + 511, the weight and bias windows hold their arrays whole, and the body stores the cell of those blocks
  (`body_cell`).  Rows are independent (`cell_rows`), so what point t writes back is rows 512 t ... 512 t + 511 of the cell
  of all rows.  The sixteen bands cover all 8192 rows, so the result array ends holding the cell of all rows.
-/
import proofs.«180917_j78451872628868_1_alg».proof.Proof.Gen.KernelIdeal.Value
import proofs.«180917_j78451872628868_1_alg».proof.Proof.GruPayload
import Idealize.ShloMosaic.Lib.ValueLayout
import Idealize.ShloMosaic.Lib.Pipeline.Value
import Idealize.ShloMosaic.Lib.StableHlo.Run

set_option maxRecDepth 16384

noncomputable section

namespace Cert.Gru

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The host's re-laid weight halves -/

/-- The first 1024 columns cut out, transposed and re-formatted: the hidden half, contraction-first. -/
theorem glue_hid (W : Mat 1024 2048) (hs : (⟨2, ![1024, 2048]⟩ : Shape).Slices ![0, 0] ⟨2, ![1024, 1024]⟩)
    (ht : (⟨2, ![1024, 1024]⟩ : Shape).Transposes [1, 0] ⟨2, ![1024, 1024]⟩) (hb : FTy.bf16.bits < FTy.f32.bits) :
    (truncf .bf16 (transpose ⟨2, ![1024, 1024]⟩ [1, 0] (extractStridedSlice ⟨2, ![1024, 1024]⟩ ![0, 0] W hs) ht : FVec Ideal _ .f32) hb
      : FVec Ideal _ .bf16) = hidHalf W := by
  funext i
  obtain ⟨l, j, rfl⟩ : ∃ (l j : Fin 1024), i = ix2 l j := ⟨i 0, i 1, eq_ix2 i⟩
  show transpose ⟨2, ![1024, 1024]⟩ [1, 0] (extractStridedSlice ⟨2, ![1024, 1024]⟩ ![0, 0] W hs) ht (ix2 l j) = W (ix2 j (lo l))
  rw [transpose_ix2_apply]
  exact extractStridedSlice_apply ![0, 0] W hs (ix2 j l) (ix2 j (lo l)) (fun a => match a with
    | ⟨0, _⟩ => (Nat.zero_add _).symm
    | ⟨1, _⟩ => (Nat.zero_add _).symm)

/-- The last 1024 columns cut out, transposed and re-formatted: the input half, contraction-first. -/
theorem glue_in (W : Mat 1024 2048) (hs : (⟨2, ![1024, 2048]⟩ : Shape).Slices ![0, 1024] ⟨2, ![1024, 1024]⟩)
    (ht : (⟨2, ![1024, 1024]⟩ : Shape).Transposes [1, 0] ⟨2, ![1024, 1024]⟩) (hb : FTy.bf16.bits < FTy.f32.bits) :
    (truncf .bf16 (transpose ⟨2, ![1024, 1024]⟩ [1, 0] (extractStridedSlice ⟨2, ![1024, 1024]⟩ ![0, 1024] W hs) ht : FVec Ideal _ .f32) hb
      : FVec Ideal _ .bf16) = inHalf W := by
  funext i
  obtain ⟨l, j, rfl⟩ : ∃ (l j : Fin 1024), i = ix2 l j := ⟨i 0, i 1, eq_ix2 i⟩
  show transpose ⟨2, ![1024, 1024]⟩ [1, 0] (extractStridedSlice ⟨2, ![1024, 1024]⟩ ![0, 1024] W hs) ht (ix2 l j) = W (ix2 j (hi l))
  rw [transpose_ix2_apply]
  exact extractStridedSlice_apply ![0, 1024] W hs (ix2 j l) (ix2 j (hi l)) (fun a => match a with
    | ⟨0, _⟩ => (Nat.zero_add _).symm
    | ⟨1, _⟩ => rfl)

variable (m : (ℓ : Loc nD τ sig) → Buf (Elt Ideal) ℓ) (ρ : Dev nD → PrngReg)

/-! ## The argument arrays, and the result as one function of them -/

abbrev xArr (c : Dev nD) : Mat 8192 1024 := m ((c : Thread nD τ).loc main_arg0)
abbrev hArr (c : Dev nD) : Mat 8192 1024 := m ((c : Thread nD τ).loc main_arg1)
abbrev wzArr (c : Dev nD) : Mat 1024 2048 := m ((c : Thread nD τ).loc main_arg2)
abbrev bzArr (c : Dev nD) : Row 1024 := m ((c : Thread nD τ).loc main_arg3)
abbrev wrArr (c : Dev nD) : Mat 1024 2048 := m ((c : Thread nD τ).loc main_arg4)
abbrev brArr (c : Dev nD) : Row 1024 := m ((c : Thread nD τ).loc main_arg5)
abbrev whArr (c : Dev nD) : Mat 1024 2048 := m ((c : Thread nD τ).loc main_arg6)
abbrev bhArr (c : Dev nD) : Row 1024 := m ((c : Thread nD τ).loc main_arg7)

/-- The cell of all rows, over the arguments as launched. -/
abbrev result (c : Dev nD) : Mat 8192 1024 :=
  cell (xArr m c) (hArr m c) (hidHalf (wzArr m c)) (inHalf (wzArr m c)) (bzArr m c)
    (hidHalf (wrArr m c)) (inHalf (wrArr m c)) (brArr m c) (hidHalf (whArr m c)) (inHalf (whArr m c)) (bhArr m c)

/-! ## The arrays as the region finds them -/

theorem V_x (c : Dev nD) : (V m c main_v18 : S8192x1024.Idx → EReal) = xArr m c := by
  have e : (V m c main_v18 : S8192x1024.Idx → EReal) = (truncf (F := Ideal) (s := S8192x1024) (φ := .f32) .bf16 (xArr m c) bitsLt_bf16_f32 : S8192x1024.Idx → EReal) := by
    dsimp only [Gen.V, Gen.hostOps0]; after_results
  rw [e]; rfl

theorem V_wzh (c : Dev nD) : (V m c main_v2 : S1024x1024.Idx → EReal) = hidHalf (wzArr m c) := by
  have e : (V m c main_v2 : S1024x1024.Idx → EReal) = truncf .bf16 (transpose S1024x1024 [1, 0]
      (extractStridedSlice S1024x1024 ![0, 0] (wzArr m c) slices_S1024x2048_S1024x1024_0_0) transposes_S1024x1024_S1024x1024_1_0 : FVec Ideal S1024x1024 .f32) bitsLt_bf16_f32 := by
    dsimp only [Gen.V, Gen.hostOps0]; after_results
  rw [e]; exact glue_hid _ _ _ _

theorem V_wzx (c : Dev nD) : (V m c main_v5 : S1024x1024.Idx → EReal) = inHalf (wzArr m c) := by
  have e : (V m c main_v5 : S1024x1024.Idx → EReal) = truncf .bf16 (transpose S1024x1024 [1, 0]
      (extractStridedSlice S1024x1024 ![0, 1024] (wzArr m c) slices_S1024x2048_S1024x1024_0_1024) transposes_S1024x1024_S1024x1024_1_0 : FVec Ideal S1024x1024 .f32) bitsLt_bf16_f32 := by
    dsimp only [Gen.V, Gen.hostOps0]; after_results
  rw [e]; exact glue_in _ _ _ _

theorem V_wrh (c : Dev nD) : (V m c main_v8 : S1024x1024.Idx → EReal) = hidHalf (wrArr m c) := by
  have e : (V m c main_v8 : S1024x1024.Idx → EReal) = truncf .bf16 (transpose S1024x1024 [1, 0]
      (extractStridedSlice S1024x1024 ![0, 0] (wrArr m c) slices_S1024x2048_S1024x1024_0_0) transposes_S1024x1024_S1024x1024_1_0 : FVec Ideal S1024x1024 .f32) bitsLt_bf16_f32 := by
    dsimp only [Gen.V, Gen.hostOps0]; after_results
  rw [e]; exact glue_hid _ _ _ _

theorem V_wrx (c : Dev nD) : (V m c main_v11 : S1024x1024.Idx → EReal) = inHalf (wrArr m c) := by
  have e : (V m c main_v11 : S1024x1024.Idx → EReal) = truncf .bf16 (transpose S1024x1024 [1, 0]
      (extractStridedSlice S1024x1024 ![0, 1024] (wrArr m c) slices_S1024x2048_S1024x1024_0_1024) transposes_S1024x1024_S1024x1024_1_0 : FVec Ideal S1024x1024 .f32) bitsLt_bf16_f32 := by
    dsimp only [Gen.V, Gen.hostOps0]; after_results
  rw [e]; exact glue_in _ _ _ _

theorem V_whh (c : Dev nD) : (V m c main_v14 : S1024x1024.Idx → EReal) = hidHalf (whArr m c) := by
  have e : (V m c main_v14 : S1024x1024.Idx → EReal) = truncf .bf16 (transpose S1024x1024 [1, 0]
      (extractStridedSlice S1024x1024 ![0, 0] (whArr m c) slices_S1024x2048_S1024x1024_0_0) transposes_S1024x1024_S1024x1024_1_0 : FVec Ideal S1024x1024 .f32) bitsLt_bf16_f32 := by
    dsimp only [Gen.V, Gen.hostOps0]; after_results
  rw [e]; exact glue_hid _ _ _ _

theorem V_whx (c : Dev nD) : (V m c main_v17 : S1024x1024.Idx → EReal) = inHalf (whArr m c) := by
  have e : (V m c main_v17 : S1024x1024.Idx → EReal) = truncf .bf16 (transpose S1024x1024 [1, 0]
      (extractStridedSlice S1024x1024 ![0, 1024] (whArr m c) slices_S1024x2048_S1024x1024_0_1024) transposes_S1024x1024_S1024x1024_1_0 : FVec Ideal S1024x1024 .f32) bitsLt_bf16_f32 := by
    dsimp only [Gen.V, Gen.hostOps0]; after_results
  rw [e]; exact glue_in _ _ _ _

/-! ## The index maps, decided over the sixteen points -/

theorem hz2 : (![0, 0] : Fin 2 → Nat) = fun _ => 0 := funext fun a => by fin_cases a <;> rfl
theorem hz1 : (![0] : Fin 1 → Nat) = fun _ => 0 := funext fun a => by fin_cases a; rfl

/-- The input, hidden and result windows move one band of rows per point; every other window stays at block 0. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 1) = 0 :=
  (by decide +kernel : ∀ t : Fin grid0.N, win0_8.index t (0 : Fin 1) = 0)
theorem idx9 : ∀ t : Fin cfg0.N, win0_9.index t (0 : Fin 1) = 0 :=
  (by decide +kernel : ∀ t : Fin grid0.N, win0_9.index t (0 : Fin 1) = 0)
theorem idx10 : ∀ t : Fin cfg0.N, win0_10.index t (0 : Fin 1) = 0 :=
  (by decide +kernel : ∀ t : Fin grid0.N, win0_10.index t (0 : Fin 1) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-- Row `p` of the band of point `t` is row 512 t + p of the whole. -/
def rowOf (t : Fin cfg0.N) (p : Fin 512) : Fin 8192 :=
  ⟨512 * t.val + p.val, by have h := t.isLt; have hN : cfg0.N = 16 := N_0; have := p.isLt; omega⟩

/-! ## Each window's block at a point -/

/-- The input window's block at point t is the band of rows 512 t ... of the inputs. -/
theorem xblk_apply (c : Dev nD) (t : Fin cfg0.N) (p : Fin 512) (l : Fin 1024) :
    (iblk m c 0 t : Mat 512 1024) (ix2 p l) = xArr m c (ix2 (rowOf t p) l) := by
  show V m c main_v18 (((cfg0.win 0).blk t).view.emb (ix2 p l)) = _
  have he : ((cfg0.win 0).blk t).view.emb (ix2 p l) = ix2 (rowOf t p) l := by
    obtain ⟨e0, e1⟩ := idx0 t
    funext a; apply Fin.ext
    match a with
    | ⟨0, _⟩ => show win0_0.index t (0 : Fin 2) * 512 + 1 * p.val = 512 * t.val + p.val; rw [e0]; omega
    | ⟨1, _⟩ => show win0_0.index t (1 : Fin 2) * 1024 + 1 * l.val = l.val; rw [e1]; omega
  rw [he]; exact congrFun (V_x m c) _

/-- The hidden window's block at point t is the band of rows 512 t ... of the hidden states. -/
theorem hblk_apply (c : Dev nD) (t : Fin cfg0.N) (p : Fin 512) (l : Fin 1024) :
    (iblk m c 1 t : Mat 512 1024) (ix2 p l) = hArr m c (ix2 (rowOf t p) l) := by
  show V m c main_arg1 (((cfg0.win 1).blk t).view.emb (ix2 p l)) = _
  have he : ((cfg0.win 1).blk t).view.emb (ix2 p l) = ix2 (rowOf t p) l := by
    obtain ⟨e0, e1⟩ := idx1 t
    funext a; apply Fin.ext
    match a with
    | ⟨0, _⟩ => show win0_1.index t (0 : Fin 2) * 512 + 1 * p.val = 512 * t.val + p.val; rw [e0]; omega
    | ⟨1, _⟩ => show win0_1.index t (1 : Fin 2) * 1024 + 1 * l.val = l.val; rw [e1]; omega
  rw [he]; exact congrFun (V_main_arg1 m c) _

/-- A 1024 x 1024 array read through an index map that fixes every index is the array itself. -/
theorem read_whole (A B : Mat 1024 1024)
    (e : (⟨2, ![1024, 1024]⟩ : Shape).Idx → (⟨2, ![1024, 1024]⟩ : Shape).Idx)
    (hB : ∀ y, B y = A (e y)) (he : ∀ l j : Fin 1024, e (ix2 l j) = ix2 l j) : B = A := by
  funext y
  obtain ⟨l, j, rfl⟩ : ∃ (l j : Fin 1024), y = ix2 l j := ⟨y 0, y 1, eq_ix2 y⟩
  rw [hB, he]

/-- A block's index map at block index 0 on both axes: block index times extent plus the coordinate inside the block is
    the coordinate itself. -/
theorem emb_at_zero (i0 i1 : ℕ) (h0 : i0 = 0) (h1 : i1 = 0) (l j : Fin 1024) (k : (⟨2, ![1024, 1024]⟩ : Shape).Idx)
    (k0 : (k 0).val = i0 * 1024 + 1 * l.val) (k1 : (k 1).val = i1 * 1024 + 1 * j.val) : k = ix2 l j := by
  subst h0 h1
  funext a; apply Fin.ext
  match a with
  | ⟨0, _⟩ => show (k 0).val = l.val; omega
  | ⟨1, _⟩ => show (k 1).val = j.val; omega

/-- The update gate's hidden half is staged whole at every point. -/
theorem wzh_blk (c : Dev nD) (t : Fin cfg0.N) : (iblk m c 2 t : Mat 1024 1024) = hidHalf (wzArr m c) :=
  read_whole _ _ (fun y => ((cfg0.win 2).blk t).view.emb y) (fun y => congrFun (V_wzh m c) _)
    (fun l j => emb_at_zero _ _ (idx2 t).1 (idx2 t).2 l j _ rfl rfl)

/-- The update gate's input half is staged whole at every point. -/
theorem wzx_blk (c : Dev nD) (t : Fin cfg0.N) : (iblk m c 3 t : Mat 1024 1024) = inHalf (wzArr m c) :=
  read_whole _ _ (fun y => ((cfg0.win 3).blk t).view.emb y) (fun y => congrFun (V_wzx m c) _)
    (fun l j => emb_at_zero _ _ (idx3 t).1 (idx3 t).2 l j _ rfl rfl)

/-- The reset gate's hidden half is staged whole at every point. -/
theorem wrh_blk (c : Dev nD) (t : Fin cfg0.N) : (iblk m c 4 t : Mat 1024 1024) = hidHalf (wrArr m c) :=
  read_whole _ _ (fun y => ((cfg0.win 4).blk t).view.emb y) (fun y => congrFun (V_wrh m c) _)
    (fun l j => emb_at_zero _ _ (idx4 t).1 (idx4 t).2 l j _ rfl rfl)

/-- The reset gate's input half is staged whole at every point. -/
theorem wrx_blk (c : Dev nD) (t : Fin cfg0.N) : (iblk m c 5 t : Mat 1024 1024) = inHalf (wrArr m c) :=
  read_whole _ _ (fun y => ((cfg0.win 5).blk t).view.emb y) (fun y => congrFun (V_wrx m c) _)
    (fun l j => emb_at_zero _ _ (idx5 t).1 (idx5 t).2 l j _ rfl rfl)

/-- The candidate's hidden half is staged whole at every point. -/
theorem whh_blk (c : Dev nD) (t : Fin cfg0.N) : (iblk m c 6 t : Mat 1024 1024) = hidHalf (whArr m c) :=
  read_whole _ _ (fun y => ((cfg0.win 6).blk t).view.emb y) (fun y => congrFun (V_whh m c) _)
    (fun l j => emb_at_zero _ _ (idx6 t).1 (idx6 t).2 l j _ rfl rfl)

/-- The candidate's input half is staged whole at every point. -/
theorem whx_blk (c : Dev nD) (t : Fin cfg0.N) : (iblk m c 7 t : Mat 1024 1024) = inHalf (whArr m c) :=
  read_whole _ _ (fun y => ((cfg0.win 7).blk t).view.emb y) (fun y => congrFun (V_whx m c) _)
    (fun l j => emb_at_zero _ _ (idx7 t).1 (idx7 t).2 l j _ rfl rfl)

/-- The update gate's bias row is staged whole at every point. -/
theorem bz_blk (c : Dev nD) (t : Fin cfg0.N) : (iblk m c 8 t : Row 1024) = bzArr m c := by
  funext y
  obtain ⟨j, rfl⟩ : ∃ j : Fin 1024, y = ix1 j := ⟨y 0, eq_ix1 y⟩
  show V m c main_arg3 (((cfg0.win 8).blk t).view.emb (ix1 j)) = _
  have he : ((cfg0.win 8).blk t).view.emb (ix1 j) = ix1 j := by
    have e0 := idx8 t
    funext a; apply Fin.ext
    match a with
    | ⟨0, _⟩ => show win0_8.index t (0 : Fin 1) * 1024 + 1 * j.val = j.val; rw [e0]; omega
  rw [he]; exact congrFun (V_main_arg3 m c) _

/-- The reset gate's bias row is staged whole at every point. -/
theorem br_blk (c : Dev nD) (t : Fin cfg0.N) : (iblk m c 9 t : Row 1024) = brArr m c := by
  funext y
  obtain ⟨j, rfl⟩ : ∃ j : Fin 1024, y = ix1 j := ⟨y 0, eq_ix1 y⟩
  show V m c main_arg5 (((cfg0.win 9).blk t).view.emb (ix1 j)) = _
  have he : ((cfg0.win 9).blk t).view.emb (ix1 j) = ix1 j := by
    have e0 := idx9 t
    funext a; apply Fin.ext
    match a with
    | ⟨0, _⟩ => show win0_9.index t (0 : Fin 1) * 1024 + 1 * j.val = j.val; rw [e0]; omega
  rw [he]; exact congrFun (V_main_arg5 m c) _

/-- The candidate's bias row is staged whole at every point. -/
theorem bh_blk (c : Dev nD) (t : Fin cfg0.N) : (iblk m c 10 t : Row 1024) = bhArr m c := by
  funext y
  obtain ⟨j, rfl⟩ : ∃ j : Fin 1024, y = ix1 j := ⟨y 0, eq_ix1 y⟩
  show V m c main_arg7 (((cfg0.win 10).blk t).view.emb (ix1 j)) = _
  have he : ((cfg0.win 10).blk t).view.emb (ix1 j) = ix1 j := by
    have e0 := idx10 t
    funext a; apply Fin.ext
    match a with
    | ⟨0, _⟩ => show win0_10.index t (0 : Fin 1) * 1024 + 1 * j.val = j.val; rw [e0]; omega
  rw [he]; exact congrFun (V_main_arg7 m c) _

/-! ## What a point writes back, the cover, and the array after the run -/

/-- WHAT POINT t WRITES BACK is rows 512 t ... 512 t + 511 of the cell of all rows. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero hz2]
  simp only [View.ld_unit_zero (S := S512x1024) hz2, View.ld_unit_zero (S := S1024x1024) hz2, View.ld_unit_zero (S := S1024) hz1]
  rw [body_cell (iblk m c 0 t) (iblk m c 1 t) (iblk m c 2 t) (iblk m c 3 t) (iblk m c 4 t) (iblk m c 5 t) (iblk m c 6 t)
    (iblk m c 7 t) (iblk m c 8 t) (iblk m c 9 t) (iblk m c 10 t)]
  rw [wzh_blk m c t, wzx_blk m c t, wrh_blk m c t, wrx_blk m c t, whh_blk m c t, whx_blk m c t, bz_blk m c t, br_blk m c t, bh_blk m c t]
  funext y
  obtain ⟨p, q, rfl⟩ : ∃ (p : Fin 512) (q : Fin 1024), y = ix2 p q := ⟨y 0, y 1, eq_ix2 y⟩
  have he : ((cfg0.win 11).blk t).view.emb (ix2 p q) = ix2 (rowOf t p) q := by
    obtain ⟨e0, e1⟩ := idx11 t
    funext a; apply Fin.ext
    match a with
    | ⟨0, _⟩ => show win0_11.index t (0 : Fin 2) * 512 + 1 * p.val = 512 * t.val + p.val; rw [e0]; omega
    | ⟨1, _⟩ => show win0_11.index t (1 : Fin 2) * 1024 + 1 * q.val = q.val; rw [e1]; omega
  show cell (iblk m c 0 t : Mat 512 1024) (iblk m c 1 t : Mat 512 1024) (hidHalf (wzArr m c)) (inHalf (wzArr m c)) (bzArr m c)
      (hidHalf (wrArr m c)) (inHalf (wrArr m c)) (brArr m c) (hidHalf (whArr m c)) (inHalf (whArr m c)) (bhArr m c) (ix2 p q)
    = result m c (((cfg0.win 11).blk t).view.emb (ix2 p q))
  rw [he]
  exact cell_rows (hArr m c) (xArr m c) (iblk m c 1 t) (iblk m c 0 t) (rowOf t) (hblk_apply m c t) (xblk_apply m c t)
    _ _ _ _ _ _ _ _ _ p q

/-- An index of the result array is in point t's block iff each coordinate is in the block's range on its axis. -/
theorem mem_blk (t : Fin cfg0.N) (i : S8192x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v19).slice (win0_11.rect t)).set ↔ _
  rw [View.set_slice_whole, Rect.mem_set_unit]
  exact Iff.rfl

/-- Every entry of the result array is in some point's block: row r is in the band of point r / 512. -/
theorem cover (i : S8192x1024.Idx) : ∃ t : Fin cfg0.N, (cfg0.win 11).flush t = true ∧ i ∈ ((cfg0.win 11).blk t).view.set := by
  have hi0 : (i 0).val < 8192 := (i 0).isLt
  have hi1 : (i 1).val < 1024 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨e0, e1⟩ := idx11 t
  refine ⟨t, flush0_11 t, ?_⟩
  rw [mem_blk]
  intro a
  match a with
  | ⟨0, _⟩ =>
    show win0_11.index t (0 : Fin 2) * 512 ≤ (i 0).val ∧ (i 0).val < win0_11.index t (0 : Fin 2) * 512 + 512
    rw [e0, ht]; omega
  | ⟨1, _⟩ =>
    show win0_11.index t (1 : Fin 2) * 1024 ≤ (i 1).val ∧ (i 1).val < win0_11.index t (1 : Fin 2) * 1024 + 1024
    rw [e1]; omega

/-- THE RESULT ARRAY after the run is the cell of all rows. -/
theorem final (c : Dev nD) : (dats m 0 c).arrAt 11 cfg0.N = result m c :=
  (dats m 0 c).arrAt_eq_of_cover 11 (result m c) (fun t _ => flushed_eq m c t) cover

/-- The kernel's run, read: the result array at the cell of all rows, the arguments unchanged. -/
theorem run : θ_run defs (onTc (τ := τ) (main (F := Ideal))) ⟨m, fun _ => 0, ρ⟩ fun r => ∀ c : Dev nD,
      r.2.mem ((c : Thread nD τ).loc main_v19) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Gru

end
-- ==== Proof.GruHost.lean ====
/-
  The reference's spelling of the cell's pieces, read at an entry on the extended reals.

  The reference joins the hidden row and the input row into one row of 2048 entries and multiplies it by the whole
  transposed weight matrix.  Read at an entry, that product is a sum over 2048 columns; split at column 1024 it is the
  sum of the hidden row against the hidden half of the weights plus the sum of the input row against the input half:
  the gate's pre-activation `pre`.  The reference writes the logistic function as the quotient 1 / (1 + e^(-P)) with the
  ones broadcast from a scalar constant; entry by entry that is `Ideal.logistic`.
-/
import Idealize.ShloMosaic.Lib.ValueIdx
import Idealize.ShloMosaic.Lib.IdealHost
import Idealize.ShloMosaic.Lib.ValueLayout
import Idealize.ShloMosaic.Lib.Pipeline.Value
import Idealize.ShloMosaic.PureOps.Ideal.Laws
import proofs.«180917_j78451872628868_1_alg».proof.Proof.LibMatmulPlain
import proofs.«180917_j78451872628868_1_alg».proof.Proof.GruSpec

noncomputable section

namespace Cert.Gru

open Idealize.ShloMosaic Idealize.ShloMosaic.ValueIdx

/-- Two matrices joined along their columns, read at a column of the first half. -/
theorem concat_lo (a b : Mat 8192 1024)
    (h : Shape.Concatenates [(⟨2, ![8192, 1024]⟩ : Shape), ⟨2, ![8192, 1024]⟩] ⟨2, ![8192, 2048]⟩ 1) (p : Fin 8192) (l : Fin 1024) :
    concatenate ⟨2, ![8192, 2048]⟩ 1 [⟨⟨2, ![8192, 1024]⟩, a⟩, ⟨⟨2, ![8192, 1024]⟩, b⟩] h (ix2 p (lo l)) = a (ix2 p l) :=
  concatenate_pair_apply_left (1 : Fin 2) a b h (ix2 p (lo l)) rfl (ix2 p l) (fun c => match c with | ⟨0, _⟩ => rfl | ⟨1, _⟩ => rfl)

/-- Two matrices joined along their columns, read at a column of the second half. -/
theorem concat_hi (a b : Mat 8192 1024)
    (h : Shape.Concatenates [(⟨2, ![8192, 1024]⟩ : Shape), ⟨2, ![8192, 1024]⟩] ⟨2, ![8192, 2048]⟩ 1) (p : Fin 8192) (l : Fin 1024) :
    concatenate ⟨2, ![8192, 2048]⟩ 1 [⟨⟨2, ![8192, 1024]⟩, a⟩, ⟨⟨2, ![8192, 1024]⟩, b⟩] h (ix2 p (hi l)) = b (ix2 p l) :=
  concatenate_pair_apply_right (1 : Fin 2) a b h (ix2 p (hi l)) rfl rfl (ix2 p l)
    (fun c hc => match c, hc with | ⟨0, _⟩, _ => rfl | ⟨1, _⟩, hc => absurd rfl hc) (Nat.add_comm l.val 1024)

/-- A gate's pre-activation as the reference spells it: the joined row [h, x] against the transposed weight matrix,
    plus the bias row broadcast over the batch. -/
theorem ref_pre (D : DotDims ⟨2, ![8192, 2048]⟩ ⟨2, ![2048, 1024]⟩ ⟨2, ![8192, 1024]⟩) (hD : Cert.Gcn.IsPlain D)
    (a b : Mat 8192 1024) (W : Mat 1024 2048) (bias : Row 1024)
    (hc : Shape.Concatenates [(⟨2, ![8192, 1024]⟩ : Shape), ⟨2, ![8192, 1024]⟩] ⟨2, ![8192, 2048]⟩ 1)
    (ht : (⟨2, ![1024, 2048]⟩ : Shape).Transposes [1, 0] ⟨2, ![2048, 1024]⟩)
    (hb1 : (⟨1, ![1024]⟩ : Shape).BroadcastsInDim ⟨2, ![1, 1024]⟩ ![1])
    (hb2 : (⟨2, ![1, 1024]⟩ : Shape).BroadcastsInDim ⟨2, ![8192, 1024]⟩ ![0, 1])
    (p : Fin 8192) (j : Fin 1024) :
    addf (F := Ideal) (φ := .f32)
        (Host.dotGeneral D none (concatenate ⟨2, ![8192, 2048]⟩ 1 [⟨⟨2, ![8192, 1024]⟩, a⟩, ⟨⟨2, ![8192, 1024]⟩, b⟩] hc : FVec Ideal _ .f32)
          (transpose ⟨2, ![2048, 1024]⟩ [1, 0] W ht : FVec Ideal _ .f32))
        (broadcastInDim ⟨2, ![8192, 1024]⟩ ![0, 1] hb2 (broadcastInDim ⟨2, ![1, 1024]⟩ ![1] hb1 bias)) (ix2 p j)
      = pre a b (hidHalf W) (inHalf W) bias p j := by
  rw [addf_apply, Cert.Gcn.dotGeneral_plain_apply D hD, sum_halves]
  unfold pre
  congr 1
  · congr 1
    · refine Finset.sum_congr rfl fun l _ => ?_
      rw [concat_lo, transpose_ix2_apply]; rfl
    · refine Finset.sum_congr rfl fun l _ => ?_
      rw [concat_hi, transpose_ix2_apply]; rfl
  · rw [broadcastInDim_apply ![0, 1] hb2 _ (ix2 p j) (ix2 (0 : Fin 1) j) (fun c => match c with
        | ⟨0, _⟩ => rfl
        | ⟨1, _⟩ => by show j.val = if (1024 : Nat) = 1 then 0 else j.val; rw [if_neg (by decide)]),
      broadcastInDim_apply ![1] hb1 bias (ix2 (0 : Fin 1) j) (ix1 j) (fun c => match c with
        | ⟨0, _⟩ => by show j.val = if (1024 : Nat) = 1 then 0 else j.val; rw [if_neg (by decide)])]

/-- The reference's quotient 1 / (1 + e^(-P)), the ones being scalar constants broadcast over the batch, is the logistic
    function of P entry by entry. -/
theorem ref_logistic (P : Mat 8192 1024) (hs : (⟨0, ![]⟩ : Shape).BroadcastsInDim ⟨2, ![8192, 1024]⟩ ![]) (i : (⟨2, ![8192, 1024]⟩ : Shape).Idx) :
    Host.divf (F := Ideal) (φ := .f32) (broadcastInDim ⟨2, ![8192, 1024]⟩ ![] hs (constant ⟨0, ![]⟩ .f32 0x3F800000#32))
        (addf (broadcastInDim ⟨2, ![8192, 1024]⟩ ![] hs (constant ⟨0, ![]⟩ .f32 0x3F800000#32)) (Host.exp (Host.negf P))) i
      = Ideal.logistic (P i) := by
  show Ideal.div (broadcastInDim ⟨2, ![8192, 1024]⟩ ![] hs (constant (F := Ideal) ⟨0, ![]⟩ .f32 0x3F800000#32) i)
      (broadcastInDim ⟨2, ![8192, 1024]⟩ ![] hs (constant (F := Ideal) ⟨0, ![]⟩ .f32 0x3F800000#32) i + Ideal.exp (-(P i))) = _
  rw [broadcastInDim_scalar_apply]
  exact logistic_quotient _

end Cert.Gru

end
-- ==== Proof.GruReference.lean ====
/-
  The reference computes the cell of all 8192 rows.

  The reference's result is built from three uses of one pattern: the joined rows [h, x] (for the candidate, [r * h, x])
  against a whole transposed weight matrix, plus the bias row, and for the two gates the quotient 1 / (1 + e^(-P)).  Read at
  an entry each pattern is the cell's own piece (`ref_pre`, `ref_logistic`), with the weight matrix split into its hidden
  half and its input half.
-/
import proofs.«180917_j78451872628868_1_alg».proof.Proof.RefRun
import proofs.«180917_j78451872628868_1_alg».proof.Proof.GruHost

noncomputable section

namespace Cert.Gru

open Idealize.ShloMosaic Idealize.ShloMosaic.ValueIdx Cert.ReferenceIdeal Cert.ReferenceIdeal.Gen

/-- The reference's three products contract the joined row's columns with the transposed weights' rows. -/
theorem refDot_plain : Cert.Gcn.IsPlain dot_S8192x2048_S2048x1024_S8192x1024_1_0_0_1_n_n := ⟨rfl, rfl, rfl, rfl, rfl, rfl⟩

/-- The scalar one broadcast over the batch. -/
abbrev refOne : FVec Ideal S8192x1024 .f32 := broadcastInDim S8192x1024 ![] bcast_S_S8192x1024 (constant S_ .f32 0x3F800000#32)

/-- The joined rows [a, x] against the transposed weights, plus the bias row. -/
abbrev refPre (a x : Mat 8192 1024) (W : Mat 1024 2048) (bias : Row 1024) : FVec Ideal S8192x1024 .f32 :=
  addf (Host.dotGeneral (φ₁ := .f32) (φ₂ := .f32) dot_S8192x2048_S2048x1024_S8192x1024_1_0_0_1_n_n none
      (concatenate S8192x2048 1 [⟨S8192x1024, a⟩, ⟨S8192x1024, x⟩] concatenates_S8192x1024_S8192x1024_S8192x2048_d1)
      (transpose S2048x1024 [1, 0] W transposes_S1024x2048_S2048x1024_1_0))
    (broadcastInDim S8192x1024 ![0, 1] bcast_S1x1024_S8192x1024_0_1 (broadcastInDim S1x1024 ![1] bcast_S1024_S1x1024_1 bias))

/-- A gate as the reference writes it. -/
abbrev refGate (x h : Mat 8192 1024) (W : Mat 1024 2048) (bias : Row 1024) : FVec Ideal S8192x1024 .f32 :=
  Host.divf refOne (addf refOne (Host.exp (Host.negf (refPre h x W bias))))

/-- The reference's result. -/
abbrev refOut (x h : Mat 8192 1024) (Wz : Mat 1024 2048) (bz : Row 1024) (Wr : Mat 1024 2048) (br : Row 1024)
    (Wh : Mat 1024 2048) (bh : Row 1024) : FVec Ideal S8192x1024 .f32 :=
  addf (mulf (subf refOne (refGate x h Wz bz)) h)
    (mulf (refGate x h Wz bz) (Host.tanh (refPre (mulf (refGate x h Wr br) h) x Wh bh)))

theorem refGate_apply (x h : Mat 8192 1024) (W : Mat 1024 2048) (bias : Row 1024) (b : Fin 8192) (j : Fin 1024) :
    refGate x h W bias (ix2 b j) = gate h x (hidHalf W) (inHalf W) bias b j :=
  (ref_logistic (refPre h x W bias) bcast_S_S8192x1024 (ix2 b j)).trans
    (congrArg Ideal.logistic (ref_pre _ refDot_plain h x W bias _ _ _ _ b j))

/-- THE REFERENCE'S RESULT is the cell of all rows, each weight matrix split into its two halves. -/
theorem refOut_eq (x h : Mat 8192 1024) (Wz : Mat 1024 2048) (bz : Row 1024) (Wr : Mat 1024 2048) (br : Row 1024)
    (Wh : Mat 1024 2048) (bh : Row 1024) :
    refOut x h Wz bz Wr br Wh bh
      = cell x h (hidHalf Wz) (inHalf Wz) bz (hidHalf Wr) (inHalf Wr) br (hidHalf Wh) (inHalf Wh) bh := by
  funext i
  obtain ⟨b, j, rfl⟩ : ∃ (b : Fin 8192) (j : Fin 1024), i = ix2 b j := ⟨i 0, i 1, eq_ix2 i⟩
  have hr : (mulf (refGate x h Wr br) h : Mat 8192 1024) = resetHid h x (hidHalf Wr) (inHalf Wr) br := by
    funext i
    obtain ⟨b, l, rfl⟩ : ∃ (b : Fin 8192) (l : Fin 1024), i = ix2 b l := ⟨i 0, i 1, eq_ix2 i⟩
    exact congrArg (· * h (ix2 b l)) (refGate_apply x h Wr br b l)
  have hc : refPre (mulf (refGate x h Wr br) h) x Wh bh (ix2 b j)
      = pre (resetHid h x (hidHalf Wr) (inHalf Wr) br) x (hidHalf Wh) (inHalf Wh) bh b j :=
    (ref_pre _ refDot_plain (mulf (refGate x h Wr br) h) x Wh bh _ _ _ _ b j).trans (by rw [hr])
  show (refOne (ix2 b j) - refGate x h Wz bz (ix2 b j)) * h (ix2 b j)
      + refGate x h Wz bz (ix2 b j) * Ideal.tanh (refPre (mulf (refGate x h Wr br) h) x Wh bh (ix2 b j)) = _
  rw [refGate_apply, hc, show refOne (ix2 b j) = Ideal.ofBits .f32 0x3F800000#32 from broadcastInDim_scalar_apply _ _ _,
    Ideal.ofBits_one_f32]
  rfl

end Cert.Gru

end
-- ==== Proof.lean ====
/-
  A gated recurrent cell on a batch of 8192 rows: the kernel against its reference, equal on the extended reals.

  Both programs compute, for hidden states h and inputs x and three weight matrices with their bias rows,

    z = logistic ([h, x] Wz^T + bz),   r = logistic ([h, x] Wr^T + br),
    c = tanh ([r * h, x] Wh^T + bh),   result = (1 - z) * h + z * c.

  The reference joins the two rows into one of 2048 entries and multiplies by the whole transposed weight matrix; the
  kernel keeps the two rows apart and multiplies each by its own half of the weights, sixteen bands of 512 rows at a time.
  A sum over 2048 columns is the sum over the first 1024 plus the sum over the last 1024, whatever the terms: addition of
  extended reals is commutative and associative, so no finiteness is used and the precondition is never opened.  The
  reference spells the logistic function as 1 / (1 + e^(-P)); that quotient is the logistic function at every extended
  real.  A change of float format is the identity.  So both results are one function of the arguments, `Cert.Gru.cell` of
  all rows with each weight matrix split into its two halves (Proof/GruSpec.lean): the reference by Proof/GruReference.lean,
  the kernel by Proof/GruPayload.lean (what one band stores) and Proof/GruBlocks.lean (the bands cover the array).
  The kernel's idealization rewrote nothing, so `preserves` is trivial; the frames of the two kernel programs are the
  generated ones, and the reference's frame is its run with the result dropped.
-/
import proofs.«180917_j78451872628868_1_alg».proof.Defs
import proofs.«180917_j78451872628868_1_alg».proof.Proof.Gen.Kernel
import proofs.«180917_j78451872628868_1_alg».proof.Proof.Gen.Kernel.Skeleton
import proofs.«180917_j78451872628868_1_alg».proof.Proof.Gen.Kernel.Launch
import proofs.«180917_j78451872628868_1_alg».proof.Proof.Gen.Kernel.Points
import proofs.«180917_j78451872628868_1_alg».proof.Proof.Gen.Kernel.Frame
import proofs.«180917_j78451872628868_1_alg».proof.Proof.Gen.KernelIdeal
import proofs.«180917_j78451872628868_1_alg».proof.Proof.Gen.KernelIdeal.Skeleton
import proofs.«180917_j78451872628868_1_alg».proof.Proof.Gen.KernelIdeal.Launch
import proofs.«180917_j78451872628868_1_alg».proof.Proof.Gen.KernelIdeal.Points
import proofs.«180917_j78451872628868_1_alg».proof.Proof.Gen.KernelIdeal.Frame
import proofs.«180917_j78451872628868_1_alg».proof.Proof.Gen.ReferenceIdeal
import proofs.«180917_j78451872628868_1_alg».proof.Proof.Gen.Pre_finite_inputs
import proofs.«180917_j78451872628868_1_alg».proof.Proof.Gen.KernelIdeal.Value
import proofs.«180917_j78451872628868_1_alg».proof.Proof.RefRun
import proofs.«180917_j78451872628868_1_alg».proof.Proof.GruBlocks
import proofs.«180917_j78451872628868_1_alg».proof.Proof.GruReference
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RunCopy.run (F := Ideal) m ρ)

/-- The idealization rewrote no operation. -/
theorem preserves : Cert.preserves_Kernel_KernelIdeal := trivial

/-- Both programs end with the cell of all rows of the arguments they agree on. -/
theorem algebraic : Cert.algebraic_KernelIdeal_ReferenceIdeal := by
  intro m ρ m' ρ' _ hagree
  refine ⟨fun c => Cert.Gru.result m c, Cert.Gru.run m ρ, ?_⟩
  refine (θ_run Cert.ReferenceIdeal.defs _ _).mono (fun _ h c => ⟨(h c).1.trans ?_, (h c).2⟩)
    (Cert.ReferenceIdeal.RunCopy.run (F := Ideal) m' ρ')
  obtain ⟨a0, a1, a2, a3, a4, a5, a6, a7⟩ := hagree c
  rw [a0, a1, a2, a3, a4, a5, a6, a7]
  exact Cert.Gru.refOut_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
